-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S2x300000 : Shape := ⟨2, ![2, 300000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : FVec F S256x512 .f32) (main_arg2 : FVec F S256 .f32) (main_arg3 : FVec F S1x256 .f32) (main_arg4 : FVec F S1 .f32) (main_arg5 : IVec S2x300000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_v13 main_v16
-- ==== Kernel.lean ====
abbrev S100000x256 : Shape := ⟨2, ![100000, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S2x300000 : Shape := ⟨2, ![2, 300000]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S256x256 : Shape := ⟨2, ![256, 256]⟩
abbrev S256x1 : Shape := ⟨2, ![256, 1]⟩
abbrev S256x128 : Shape := ⟨2, ![256, 128]⟩
abbrev S1x1 : Shape := ⟨2, ![1, 1]⟩
abbrev S1x128 : Shape := ⟨2, ![1, 128]⟩
abbrev S300000x128 : Shape := ⟨2, ![300000, 128]⟩
abbrev S4000x256 : Shape := ⟨2, ![4000, 256]⟩
abbrev S4000x128 : Shape := ⟨2, ![4000, 128]⟩

abbrev nBuf : Space → Nat
  | .hbm => 49
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S256x512, .f32⟩
  | .hbm, ⟨2, _⟩ => ⟨S256, .f32⟩
  | .hbm, ⟨3, _⟩ => ⟨S1x256, .f32⟩
  | .hbm, ⟨4, _⟩ => ⟨S1, .f32⟩
  | .hbm, ⟨5, _⟩ => ⟨S2x300000, .i32⟩
  | .hbm, ⟨6, _⟩ => ⟨S1x300000, .i32⟩
  | .hbm, ⟨7, _⟩ => ⟨S300000, .i32⟩
  | .hbm, ⟨8, _⟩ => ⟨S_, .i32⟩
  | .hbm, ⟨9, _⟩ => ⟨S300000, .i32⟩
  | .hbm, ⟨10, _⟩ => ⟨S300000, .i1⟩
  | .hbm, ⟨11, _⟩ => ⟨S_, .i32⟩
  | .hbm, ⟨12, _⟩ => ⟨S300000, .i32⟩
  | .hbm, ⟨13, _⟩ => ⟨S300000, .i32⟩
  | .hbm, ⟨14, _⟩ => ⟨S300000, .i32⟩
  | .hbm, ⟨15, _⟩ => ⟨S300000x1, .i32⟩
  | .hbm, ⟨16, _⟩ => ⟨S300000x256, .f32⟩
  | .hbm, ⟨17, _⟩ => ⟨S1x300000, .i32⟩
  | .hbm, ⟨18, _⟩ => ⟨S300000, .i32⟩
  | .hbm, ⟨19, _⟩ => ⟨S_, .i32⟩
  | .hbm, ⟨20, _⟩ => ⟨S300000, .i32⟩
  | .hbm, ⟨21, _⟩ => ⟨S300000, .i1⟩
  | .hbm, ⟨22, _⟩ => ⟨S_, .i32⟩
  | .hbm, ⟨23, _⟩ => ⟨S300000, .i32⟩
  | .hbm, ⟨24, _⟩ => ⟨S300000, .i32⟩
  | .hbm, ⟨25, _⟩ => ⟨S300000, .i32⟩
  | .hbm, ⟨26, _⟩ => ⟨S300000x1, .i32⟩
  | .hbm, ⟨27, _⟩ => ⟨S300000x256, .f32⟩
  | .hbm, ⟨28, _⟩ => ⟨S300000x256, .bf16⟩
  | .hbm, ⟨29, _⟩ => ⟨S300000x256, .bf16⟩
  | .hbm, ⟨30, _⟩ => ⟨S256x256, .f32⟩
  | .hbm, ⟨31, _⟩ => ⟨S256x256, .f32⟩
  | .hbm, ⟨32, _⟩ => ⟨S256x256, .bf16⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S1x256, .f32⟩
  | .hbm, ⟨37, _⟩ => ⟨S256x1, .f32⟩
  | .hbm, ⟨38, _⟩ => ⟨S_, .i32⟩
  | .hbm, ⟨39, _⟩ => ⟨S_, .f32⟩
  | .hbm, ⟨40, _⟩ => ⟨S256x128, .f32⟩
  | .hbm, ⟨41, _⟩ => ⟨S256x128, .bf16⟩
  | .hbm, ⟨42, _⟩ => ⟨S1x1, .f32⟩
  | .hbm, ⟨43, _⟩ => ⟨S_, .i32⟩
  | .hbm, ⟨44, _⟩ => ⟨S_, .f32⟩
  | .hbm, ⟨45, _⟩ => ⟨S1x128, .f32⟩
  | .hbm, ⟨46, _⟩ => ⟨S300000x128, .f32⟩
  | .hbm, ⟨47, _⟩ => ⟨S300000x1, .f32⟩
  | .hbm, ⟨48, _⟩ => ⟨S300000, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  bitsLt_bf16_f32 : FTy.bits .bf16 < FTy.bits .f32
  slices_S256x512_S256x256_0_0 : S256x512.Slices ![0, 0] S256x256
  transposes_S256x256_S256x256_1_0 : S256x256.Transposes [1, 0] S256x256
  slices_S256x512_S256x256_0_256 : S256x512.Slices ![0, 256] S256x256
  shapeCasts_S256_S1x256 : S256.ShapeCasts S1x256
  transposes_S1x256_S256x1_1_0 : S1x256.Transposes [1, 0] S256x1
  pads_S256x1_S256x128_000_01270 : S256x1.Pads (![0, 0] : Fin 2 → Nat) ![0, 127] ![0, 0] S256x128
  h_S_ : 0 < S_.numel
  shapeCasts_S1_S1x1 : S1.ShapeCasts S1x1
  pads_S1x1_S1x128_000_01270 : S1x1.Pads (![0, 0] : Fin 2 → Nat) ![0, 127] ![0, 0] S1x128
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  slices_S300000x128_S300000x1_0_0 : S300000x128.Slices ![0, 0] S300000x1
  shapeCasts_S300000x1_S300000 : S300000x1.ShapeCasts S300000
  gather_S100000x256_S300000x1_S300000x256_1_0_n_n_0_1_1256_wf : GatherDims.WF S100000x256 S300000x1 S300000x256 [1] [0] [] [0] [] 1 ![1, 256]
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S300000x256.size a
  hwx0_0 : ∀ i : grid0.Coords, EltTy.bits .bf16 = 32 ∨ (Rect.block (s := S300000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S300000x256.size a
  hwx0_1 : ∀ i : grid0.Coords, EltTy.bits .bf16 = 32 ∨ (Rect.block (s := S300000x256) S4000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S300000x128.size a
  hwx0_7 : ∀ i : grid0.Coords, EltTy.bits .f32 = 32 ∨ (Rect.block (s := S300000x128) S4000x128.size (cc0_transform_7 i) (hinb0_7 i)).WholeWords (EltTy.packing .f32)

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v18) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S2x300000 : Shape := ⟨2, ![2, 300000]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S256x256 : Shape := ⟨2, ![256, 256]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x512, .f32⟩
  | .hbm, ⟨2, _⟩ => ⟨S256, .f32⟩
  | .hbm, ⟨3, _⟩ => ⟨S1x256, .f32⟩
  | .hbm, ⟨4, _⟩ => ⟨S1, .f32⟩
  | .hbm, ⟨5, _⟩ => ⟨S2x300000, .i32⟩
  | .hbm, ⟨6, _⟩ => ⟨S1x300000, .i32⟩
  | .hbm, ⟨7, _⟩ => ⟨S300000, .i32⟩
  | .hbm, ⟨8, _⟩ => ⟨S_, .i32⟩
  | .hbm, ⟨9, _⟩ => ⟨S300000, .i32⟩
  | .hbm, ⟨10, _⟩ => ⟨S300000, .i1⟩
  | .hbm, ⟨11, _⟩ => ⟨S_, .i32⟩
  | .hbm, ⟨12, _⟩ => ⟨S300000, .i32⟩
  | .hbm, ⟨13, _⟩ => ⟨S300000, .i32⟩
  | .hbm, ⟨14, _⟩ => ⟨S300000, .i32⟩
  | .hbm, ⟨15, _⟩ => ⟨S300000x1, .i32⟩
  | .hbm, ⟨16, _⟩ => ⟨S300000x256, .f32⟩
  | .hbm, ⟨17, _⟩ => ⟨S1x300000, .i32⟩
  | .hbm, ⟨18, _⟩ => ⟨S300000, .i32⟩
  | .hbm, ⟨19, _⟩ => ⟨S_, .i32⟩
  | .hbm, ⟨20, _⟩ => ⟨S300000, .i32⟩
  | .hbm, ⟨21, _⟩ => ⟨S300000, .i1⟩
  | .hbm, ⟨22, _⟩ => ⟨S_, .i32⟩
  | .hbm, ⟨23, _⟩ => ⟨S300000, .i32⟩
  | .hbm, ⟨24, _⟩ => ⟨S300000, .i32⟩
  | .hbm, ⟨25, _⟩ => ⟨S300000, .i32⟩
  | .hbm, ⟨26, _⟩ => ⟨S300000x1, .i32⟩
  | .hbm, ⟨27, _⟩ => ⟨S300000x256, .f32⟩
  | .hbm, ⟨28, _⟩ => ⟨S256x256, .f32⟩
  | .hbm, ⟨29, _⟩ => ⟨S256x256, .f32⟩
  | .hbm, ⟨30, _⟩ => ⟨S300000x256, .f32⟩
  | .hbm, ⟨31, _⟩ => ⟨S300000x256, .f32⟩
  | .hbm, ⟨32, _⟩ => ⟨S300000x256, .f32⟩
  | .hbm, ⟨33, _⟩ => ⟨S1x256, .f32⟩
  | .hbm, ⟨34, _⟩ => ⟨S300000x256, .f32⟩
  | .hbm, ⟨35, _⟩ => ⟨S300000x256, .f32⟩
  | .hbm, ⟨36, _⟩ => ⟨S_, .f32⟩
  | .hbm, ⟨37, _⟩ => ⟨S300000x256, .f32⟩
  | .hbm, ⟨38, _⟩ => ⟨S300000x256, .f32⟩
  | .hbm, ⟨39, _⟩ => ⟨S300000x1, .f32⟩
  | .hbm, ⟨40, _⟩ => ⟨S1x1, .f32⟩
  | .hbm, ⟨41, _⟩ => ⟨S300000x1, .f32⟩
  | .hbm, ⟨42, _⟩ => ⟨S300000x1, .f32⟩
  | .hbm, ⟨43, _⟩ => ⟨S300000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  slices_S256x512_S256x256_0_0 : S256x512.Slices ![0, 0] S256x256
  slices_S256x512_S256x256_0_256 : S256x512.Slices ![0, 256] S256x256
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  shapeCasts_S300000x1_S300000 : S300000x1.ShapeCasts S300000
  gather_S100000x256_S300000x1_S300000x256_1_0_n_n_0_1_1256_wf : GatherDims.WF S100000x256 S300000x1 S300000x256 [1] [0] [] [0] [] 1 ![1, 256]
  dot_S300000x256_S256x256_S300000x256_1_1_0_0_n_n_wf : DotDims.WF S300000x256 S256x256 S300000x256 [1] [1] [0] [0] [] []
  dot_S300000x256_S1x256_S300000x1_1_1_0_0_n_n_wf : DotDims.WF S300000x256 S1x256 S300000x1 [1] [1] [0] [0] [] []

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x256_S256x256_S300000x256_1_1_0_0_n_n : DotDims S300000x256 S256x256 S300000x256 where
  lhsContracting := [1]
  rhsContracting := [1]
  lhsNonContracting := [0]
  rhsNonContracting := [0]
  lhsBatch := []
  rhsBatch := []
  wf := dot_S300000x256_S256x256_S300000x256_1_1_0_0_n_n_wf
def dot_S300000x256_S1x256_S300000x1_1_1_0_0_n_n : DotDims S300000x256 S1x256 S300000x1 where
  lhsContracting := [1]
  rhsContracting := [1]
  lhsNonContracting := [0]
  rhsNonContracting := [0]
  lhsBatch := []
  rhsBatch := []
  wf := dot_S300000x256_S1x256_S300000x1_1_1_0_0_n_n_wf

class Facts : Prop extends Facts₀ where

variable [Facts]
-- ==== Proof.Spec.lean ====
/-
  The link predictor as one function of its arrays, on the extended reals.

  For an edge `e` with source and destination embeddings `s e ·`, `d e ·` (rows of 256 numbers), the hidden unit `k` is
  `max (Σ_j s e j · ws j k + Σ_j d e j · wd j k + b k) 0`, and the score is `Σ_k hidden e k · w k + b₂`.
  Every array is given through its coordinates, so the same definition reads a block of 4000 edges and the whole
  list of 300000 edges.
-/
import Idealize.ShloMosaic.PureOps.Ideal
import Idealize.ShloMosaic.Lib.ValueIdx

noncomputable section

namespace Cert.LinkScore

open Idealize.ShloMosaic Idealize.ShloMosaic.ValueIdx

/-- Hidden unit `k` of edge `e`: the two matrix products, the bias, the rectifier. -/
def hidden {E : Nat} (s d : Fin E → Fin 256 → EReal) (ws wd : Fin 256 → Fin 256 → EReal) (b : Fin 256 → EReal)
    (e : Fin E) (k : Fin 256) : EReal :=
  max (((∑ j : Fin 256, s e j * ws j k) + (∑ j : Fin 256, d e j * wd j k)) + b k) 0

/-- The score of edge `e`: the hidden layer against the second layer's weights, plus its bias. -/
def score {E : Nat} (s d : Fin E → Fin 256 → EReal) (ws wd : Fin 256 → Fin 256 → EReal) (b : Fin 256 → EReal)
    (w : Fin 256 → EReal) (b₂ : EReal) (e : Fin E) : EReal :=
  (∑ k : Fin 256, hidden s d ws wd b e k * w k) + b₂

/-- The hidden layer depends on the edge's own two rows only. -/
theorem hidden_congr {E E' : Nat} {s d : Fin E → Fin 256 → EReal} {s' d' : Fin E' → Fin 256 → EReal}
    {ws wd ws' wd' : Fin 256 → Fin 256 → EReal} {b b' : Fin 256 → EReal} {e : Fin E} {e' : Fin E'}
    (hs : ∀ j, s e j = s' e' j) (hd : ∀ j, d e j = d' e' j) (hws : ∀ j k, ws j k = ws' j k) (hwd : ∀ j k, wd j k = wd' j k)
    (hb : ∀ k, b k = b' k) (k : Fin 256) : hidden s d ws wd b e k = hidden s' d' ws' wd' b' e' k := by
  unfold hidden
  have es : (∑ j : Fin 256, s e j * ws j k) = ∑ j : Fin 256, s' e' j * ws' j k :=
    Finset.sum_congr rfl fun j _ => by rw [hs j, hws j k]
  have ed : (∑ j : Fin 256, d e j * wd j k) = ∑ j : Fin 256, d' e' j * wd' j k :=
    Finset.sum_congr rfl fun j _ => by rw [hd j, hwd j k]
  rw [es, ed, hb k]

/-- And so does the score. -/
theorem score_congr {E E' : Nat} {s d : Fin E → Fin 256 → EReal} {s' d' : Fin E' → Fin 256 → EReal}
    {ws wd ws' wd' : Fin 256 → Fin 256 → EReal} {b b' : Fin 256 → EReal} {w w' : Fin 256 → EReal} {b₂ b₂' : EReal}
    {e : Fin E} {e' : Fin E'}
    (hs : ∀ j, s e j = s' e' j) (hd : ∀ j, d e j = d' e' j) (hws : ∀ j k, ws j k = ws' j k) (hwd : ∀ j k, wd j k = wd' j k)
    (hb : ∀ k, b k = b' k) (hw : ∀ k, w k = w' k) (hb₂ : b₂ = b₂') :
    score s d ws wd b w b₂ e = score s' d' ws' wd' b' w' b₂' e' := by
  unfold score
  have eh : (∑ k : Fin 256, hidden s d ws wd b e k * w k) = ∑ k : Fin 256, hidden s' d' ws' wd' b' e' k * w' k :=
    Finset.sum_congr rfl fun k _ => by rw [hidden_congr hs hd hws hwd hb k, hw k]
  rw [eh, hb₂]

end Cert.LinkScore

end
-- ==== Proof.KPayload.lean ====
/-
  What the kernel body stores, read at one element.

  The body loads a block of 4000 source rows and 4000 destination rows (256 numbers each), the two halves of the first
  layer's weights laid out input-major ([256, 256] each), the first bias as a row, the second layer's weights padded to
  128 columns, and the second bias padded likewise; it stores, at row `p` and column `q`,
  `Σ_k max (Σ_j src p j · ws j k + Σ_j dst p j · wd j k + b k) 0 · w₂ k q + b₂ q`:
  the score of `Cert.LinkScore` with column `q` of the padded second layer. A matrix unit's product into a zero
  accumulator is the plain sum over the contracted axis, and the change of float format before it is the identity.
-/
import proofs.«110246_j47588237639882_1_alg».proof.Proof.Gen.KernelIdeal.Skeleton
import proofs.«110246_j47588237639882_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The first layer's product: [4000, 256] × [256, 256], contracting the left operand's columns with the right's rows -/

theorem lhs1_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs1_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhs1_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhs1_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- Row `p`, column `k` of the product is `Σ_j l p j · r j k`. -/
theorem matmul1_apply (l : FVec Ideal S4000x256 .bf16) (r : FVec Ideal S256x256 .bf16) (p : Fin 4000) (k : Fin 256) :
    matmul dot_S4000x256_S256x256_S4000x256_1_0_0_1_n_n none l r (constant (F := Ideal) S4000x256 .f32 0x00000000#32) (ix2 p k)
      = ∑ j : Fin 256, l (ix2 p j) * r (ix2 j k) := by
  simp only [matmul]
  rw [Ideal.matmul_constant_zero_apply, ← Equiv.sum_comp (contrEquiv1 dot_S4000x256_S256x256_S4000x256_1_0_0_1_n_n 256 rfl rfl).symm]
  refine Finset.sum_congr rfl fun j _ => ?_
  have hk := contrEquiv1_symm_val dot_S4000x256_S256x256_S4000x256_1_0_0_1_n_n 256 rfl rfl j
  have el : dot_S4000x256_S256x256_S4000x256_1_0_0_1_n_n.lhsIdx (ix2 p k) ((contrEquiv1 dot_S4000x256_S256x256_S4000x256_1_0_0_1_n_n 256 rfl rfl).symm j) = ix2 p j := funext fun a => Fin.ext (by
    match a with
    | ⟨0, _⟩ => exact lhs1_0 _ _
    | ⟨1, _⟩ => exact (lhs1_1 _ _).trans hk)
  have er : dot_S4000x256_S256x256_S4000x256_1_0_0_1_n_n.rhsIdx (ix2 p k) ((contrEquiv1 dot_S4000x256_S256x256_S4000x256_1_0_0_1_n_n 256 rfl rfl).symm j) = ix2 j k := funext fun a => Fin.ext (by
    match a with
    | ⟨0, _⟩ => exact (rhs1_0 _ _).trans hk
    | ⟨1, _⟩ => exact rhs1_1 _ _)
  rw [el, er]

/-! ## The second layer's product: [4000, 256] × [256, 128] -/

theorem lhs2_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs2_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs2_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs2_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Row `p`, column `q` of the product is `Σ_k l p k · r k q`. -/
theorem matmul2_apply (l : FVec Ideal S4000x256 .bf16) (r : FVec Ideal S256x128 .bf16) (p : Fin 4000) (q : Fin 128) :
    matmul dot_S4000x256_S256x128_S4000x128_1_0_0_1_n_n none l r (constant (F := Ideal) S4000x128 .f32 0x00000000#32) (ix2 p q)
      = ∑ k : Fin 256, l (ix2 p k) * r (ix2 k q) := by
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ => exact lhs2_0 _ _
    | ⟨1, _⟩ => exact (lhs2_1 _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (rhs2_0 _ _).trans hk
    | ⟨1, _⟩ => exact rhs2_1 _ _)
  rw [el, er]

/-! ## A row broadcast down the block's rows -/

/-- The first bias, a [1, 256] row, broadcast to [4000, 256], reads the row's entry of the same column. -/
theorem bias1_apply (b : FVec Ideal S1x256 .f32) (p : Fin 4000) (k : Fin 256) :
    broadcastTo S4000x256 b broadcasts_S1x256_S4000x256 (ix2 p k) = b (ix2 0 k) :=
  broadcastTo_apply b broadcasts_S1x256_S4000x256 (ix2 p k) (ix2 0 k) (fun a => match a with
    | ⟨0, _⟩ => by show 0 = if (1 : Nat) = 1 then 0 else _; rw [if_pos rfl]
    | ⟨1, _⟩ => by show k.val = if (256 : Nat) = 1 then 0 else k.val; rw [if_neg (by decide)])

/-- The second bias, a [1, 128] row, broadcast to [4000, 128], likewise. -/
theorem bias2_apply (b : FVec Ideal S1x128 .f32) (p : Fin 4000) (q : Fin 128) :
    broadcastTo S4000x128 b broadcasts_S1x128_S4000x128 (ix2 p q) = b (ix2 0 q) :=
  broadcastTo_apply b broadcasts_S1x128_S4000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-! ## The stored value -/

/-- The hidden layer the body computes, at row `p` and unit `k`. -/
theorem hidden_apply (x0 x1 : FVec Ideal S4000x256 .bf16) (x2 x3 : FVec Ideal S256x256 .bf16) (x4 : FVec Ideal S1x256 .f32)
    (p : Fin 4000) (k : Fin 256) :
    maximumf (addf (addf (matmul dot_S4000x256_S256x256_S4000x256_1_0_0_1_n_n none x0 x2 (constant (F := Ideal) S4000x256 .f32 0x00000000#32))
        (matmul dot_S4000x256_S256x256_S4000x256_1_0_0_1_n_n none x1 x3 (constant (F := Ideal) S4000x256 .f32 0x00000000#32)))
        (broadcastTo S4000x256 x4 broadcasts_S1x256_S4000x256))
      (broadcast S4000x256 (Scalar.ofBits (F := Ideal) .f32 0x00000000#32)) (ix2 p k)
      = LinkScore.hidden (fun e j => x0 (ix2 e j)) (fun e j => x1 (ix2 e j)) (fun j k => x2 (ix2 j k)) (fun j k => x3 (ix2 j k))
          (fun k => x4 (ix2 0 k)) p k := by
  rw [maximumf_apply, addf_apply, addf_apply, matmul1_apply, matmul1_apply, bias1_apply, broadcast_apply]
  unfold LinkScore.hidden
  exact congrArg (max _) Ideal.ofBits_zero_f32

/-- THE PAYLOAD at row `p`, column `q`: the score of row `p` against column `q` of the padded second layer. -/
theorem pay_apply (x0 x1 : FVec Ideal S4000x256 .bf16) (x2 x3 : FVec Ideal S256x256 .bf16) (x4 : FVec Ideal S1x256 .f32)
    (x5 : FVec Ideal S256x128 .bf16) (x6 : FVec Ideal S1x128 .f32) (p : Fin 4000) (q : Fin 128) :
    k0_pay1 (F := Ideal) x0 x1 x2 x3 x4 x5 x6 (ix2 p q)
      = LinkScore.score (fun e j => x0 (ix2 e j)) (fun e j => x1 (ix2 e j)) (fun j k => x2 (ix2 j k)) (fun j k => x3 (ix2 j k))
          (fun k => x4 (ix2 0 k)) (fun k => x5 (ix2 k q)) (x6 (ix2 0 q)) p := by
  unfold k0_pay1
  simp only [shapeCast_self]
  rw [addf_apply, matmul2_apply, bias2_apply]
  unfold LinkScore.score
  refine congrArg (· + x6 (ix2 0 q)) (Finset.sum_congr rfl fun k _ => ?_)
  rw [truncf_apply, hidden_apply]

end Cert.KernelIdeal.Payload

end
-- ==== Proof.KBlocks.lean ====
/-
  From blocks to the array: what the region leaves in its [300000, 128] result.

  Grid point `t` (of 75) reads rows `4000 t … 4000 t + 3999` of the source and destination embeddings and the whole of
  every weight and bias array, and writes back rows `4000 t … 4000 t + 3999` of the result. So row `e`, column `q` of the
  result is the score of edge `e` against column `q` of the padded second layer — one function of the arrays as the
  region finds them — and the 75 blocks cover the result: row `e` lies in block `e / 4000`.
-/
import proofs.«110246_j47588237639882_1_alg».proof.Proof.Gen.KernelIdeal.Frame
import proofs.«110246_j47588237639882_1_alg».proof.Proof.KPayload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The arrays as the region finds them, and its blocks of them -/

abbrev srcArr (c : Dev nD) : Vec Ideal S300000x256 .bf16 := V m c main_v18
abbrev dstArr (c : Dev nD) : Vec Ideal S300000x256 .bf16 := V m c main_v19
abbrev wsArr (c : Dev nD) : Vec Ideal S256x256 .bf16 := V m c main_v22
abbrev wdArr (c : Dev nD) : Vec Ideal S256x256 .bf16 := V m c main_v25
abbrev b1Arr (c : Dev nD) : Vec Ideal S1x256 .f32 := V m c main_v26
abbrev w2Arr (c : Dev nD) : Vec Ideal S256x128 .bf16 := V m c main_v29
abbrev b2Arr (c : Dev nD) : Vec Ideal S1x128 .f32 := V m c main_v31

abbrev srcBlk (c : Dev nD) (t : Fin cfg0.N) : Vec Ideal S4000x256 .bf16 := iblk m c 0 t
abbrev dstBlk (c : Dev nD) (t : Fin cfg0.N) : Vec Ideal S4000x256 .bf16 := iblk m c 1 t
abbrev wsBlk (c : Dev nD) (t : Fin cfg0.N) : Vec Ideal S256x256 .bf16 := iblk m c 2 t
abbrev wdBlk (c : Dev nD) (t : Fin cfg0.N) : Vec Ideal S256x256 .bf16 := iblk m c 3 t
abbrev b1Blk (c : Dev nD) (t : Fin cfg0.N) : Vec Ideal S1x256 .f32 := iblk m c 4 t
abbrev w2Blk (c : Dev nD) (t : Fin cfg0.N) : Vec Ideal S256x128 .bf16 := iblk m c 5 t
abbrev b2Blk (c : Dev nD) (t : Fin cfg0.N) : Vec Ideal S1x128 .f32 := iblk m c 6 t

/-- The printed index maps over the 75 points: the two embedding windows and the result move one block of rows per
    point; every other window stays on its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 75 := lt_of_lt_of_eq t.isLt N_0

/-- Row `p` of the source block at point `t` is row `4000 t + p` of the source array. -/
theorem src_blk (c : Dev nD) (t : Fin cfg0.N) (p : Fin 4000) (j : Fin 256) (h : t.val * 4000 + p.val < 300000) :
    srcBlk m c t (ix2 p j) = srcArr m c (ix2 ⟨t.val * 4000 + p.val, h⟩ j) := by
  obtain ⟨e0, e1, -⟩ := idx_facts t
  show V m c main_v18 (((cfg0.win 0).blk t).view.emb (ix2 p j)) = V m c main_v18 (ix2 ⟨t.val * 4000 + p.val, h⟩ j)
  refine congrArg (V m c main_v18) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 256 + 1 * j.val = j.val; rw [e1]; omega

/-- The same for the destination block. -/
theorem dst_blk (c : Dev nD) (t : Fin cfg0.N) (p : Fin 4000) (j : Fin 256) (h : t.val * 4000 + p.val < 300000) :
    dstBlk m c t (ix2 p j) = dstArr m c (ix2 ⟨t.val * 4000 + p.val, h⟩ j) := by
  obtain ⟨-, -, e0, e1, -⟩ := idx_facts t
  show V m c main_v19 (((cfg0.win 1).blk t).view.emb (ix2 p j)) = V m c main_v19 (ix2 ⟨t.val * 4000 + p.val, h⟩ j)
  refine congrArg (V m c main_v19) (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 256 + 1 * j.val = j.val; rw [e1]; omega

/-- The weight and bias windows hold their whole arrays at every point. -/
theorem ws_blk (c : Dev nD) (t : Fin cfg0.N) (j k : Fin 256) : wsBlk m c t (ix2 j k) = wsArr m c (ix2 j k) := by
  obtain ⟨-, -, -, -, e0, e1, -⟩ := idx_facts t
  show V m c main_v22 (((cfg0.win 2).blk t).view.emb (ix2 j k)) = V m c main_v22 (ix2 j k)
  refine congrArg (V m c main_v22) (funext fun a => Fin.ext ?_)
  match a with
  | ⟨0, _⟩ => show win0_2.index t (0 : Fin 2) * 256 + 1 * j.val = j.val; rw [e0]; omega
  | ⟨1, _⟩ => show win0_2.index t (1 : Fin 2) * 256 + 1 * k.val = k.val; rw [e1]; omega

theorem wd_blk (c : Dev nD) (t : Fin cfg0.N) (j k : Fin 256) : wdBlk m c t (ix2 j k) = wdArr m c (ix2 j k) := by
  obtain ⟨-, -, -, -, -, -, e0, e1, -⟩ := idx_facts t
  show V m c main_v25 (((cfg0.win 3).blk t).view.emb (ix2 j k)) = V m c main_v25 (ix2 j k)
  refine congrArg (V m c main_v25) (funext fun a => Fin.ext ?_)
  match a with
  | ⟨0, _⟩ => show win0_3.index t (0 : Fin 2) * 256 + 1 * j.val = j.val; rw [e0]; omega
  | ⟨1, _⟩ => show win0_3.index t (1 : Fin 2) * 256 + 1 * k.val = k.val; rw [e1]; omega

theorem b1_blk (c : Dev nD) (t : Fin cfg0.N) (k : Fin 256) : b1Blk m c t (ix2 0 k) = b1Arr m c (ix2 0 k) := by
  obtain ⟨-, -, -, -, -, -, -, -, e0, e1, -⟩ := idx_facts t
  show V m c main_v26 (((cfg0.win 4).blk t).view.emb (ix2 0 k)) = V m c main_v26 (ix2 0 k)
  refine congrArg (V m c main_v26) (funext fun a => Fin.ext ?_)
  match a with
  | ⟨0, _⟩ => show win0_4.index t (0 : Fin 2) * 1 + 1 * 0 = 0; rw [e0]
  | ⟨1, _⟩ => show win0_4.index t (1 : Fin 2) * 256 + 1 * k.val = k.val; rw [e1]; omega

theorem w2_blk (c : Dev nD) (t : Fin cfg0.N) (k : Fin 256) (q : Fin 128) : w2Blk m c t (ix2 k q) = w2Arr m c (ix2 k q) := by
  obtain ⟨-, -, -, -, -, -, -, -, -, -, e0, e1, -⟩ := idx_facts t
  show V m c main_v29 (((cfg0.win 5).blk t).view.emb (ix2 k q)) = V m c main_v29 (ix2 k q)
  refine congrArg (V m c main_v29) (funext fun a => Fin.ext ?_)
  match a with
  | ⟨0, _⟩ => show win0_5.index t (0 : Fin 2) * 256 + 1 * k.val = k.val; rw [e0]; omega
  | ⟨1, _⟩ => show win0_5.index t (1 : Fin 2) * 128 + 1 * q.val = q.val; rw [e1]; omega

theorem b2_blk (c : Dev nD) (t : Fin cfg0.N) (q : Fin 128) : b2Blk m c t (ix2 0 q) = b2Arr m c (ix2 0 q) := by
  obtain ⟨-, -, -, -, -, -, -, -, -, -, -, -, e0, e1, -⟩ := idx_facts t
  show V m c main_v31 (((cfg0.win 6).blk t).view.emb (ix2 0 q)) = V m c main_v31 (ix2 0 q)
  refine congrArg (V m c main_v31) (funext fun a => Fin.ext ?_)
  match a with
  | ⟨0, _⟩ => show win0_6.index t (0 : Fin 2) * 1 + 1 * 0 = 0; rw [e0]
  | ⟨1, _⟩ => show win0_6.index t (1 : Fin 2) * 128 + 1 * q.val = q.val; rw [e1]; omega

/-! ## The result as one function of those arrays -/

/-- Row `e`, column `q`: edge `e`'s hidden layer against column `q` of the padded second layer, plus that column's bias. -/
def outAt (c : Dev nD) (e : Fin 300000) (q : Fin 128) : EReal :=
  LinkScore.score (fun e j => srcArr m c (ix2 e j)) (fun e j => dstArr m c (ix2 e j)) (fun j k => wsArr m c (ix2 j k))
    (fun j k => wdArr m c (ix2 j k)) (fun k => b1Arr m c (ix2 0 k)) (fun k => w2Arr m c (ix2 k q)) (b2Arr m c (ix2 0 q)) e

/-- The whole [300000, 128] array. -/
def outArr (c : Dev nD) : Vec Ideal S300000x128 .f32 := fun i => outAt m c ⟨(i 0).val, (i 0).isLt⟩ ⟨(i 1).val, (i 1).isLt⟩

theorem outArr_ix2 (c : Dev nD) (e : Fin 300000) (q : Fin 128) : outArr m c (ix2 e q) = outAt m c e q := rfl

/-- What the body stores at point `t`, row `p`, column `q` is the result's entry at row `4000 t + p`. -/
theorem point_eq (c : Dev nD) (t : Fin cfg0.N) (p : Fin 4000) (q : Fin 128) (h : t.val * 4000 + p.val < 300000) :
    k0_pay1 (F := Ideal) (srcBlk m c t) (dstBlk m c t) (wsBlk m c t) (wdBlk m c t) (b1Blk m c t) (w2Blk m c t) (b2Blk m c t) (ix2 p q)
      = outAt m c ⟨t.val * 4000 + p.val, h⟩ q := by
  rw [Payload.pay_apply]
  unfold outAt
  exact LinkScore.score_congr (fun j => src_blk m c t p j h) (fun j => dst_blk m c t p j h) (fun j k => ws_blk m c t j k)
    (fun j k => wd_blk m c t j k) (fun k => b1_blk m c t k) (fun k => w2_blk m c t k q) (b2_blk m c t q)

theorem hz : (![0, 0] : Fin 2 → Nat) = fun _ => 0 := funext fun a => by fin_cases a <;> rfl

/-- WHAT POINT `t` WRITES BACK is block `t` of that array. -/
theorem flushed_eq (c : Dev nD) (t : Fin cfg0.N) :
    (dats m 0 c).flushed 7 t = ((cfg0.win 7).blk t).view.read (Elt Ideal) (outArr m c) := by
  show (cfg0.win 7).cut (grid0.coords t) ((dats m 0 c).after 7 t) = _
  rw [after0_7]
  unfold out0_7
  rw [View.canon_unit_zero hz]
  simp only [View.ld_unit_zero (S := S4000x256) hz, View.ld_unit_zero (S := S256x256) hz, View.ld_unit_zero (S := S1x256) hz,
    View.ld_unit_zero (S := S256x128) hz, View.ld_unit_zero (S := S1x128) hz]
  obtain ⟨-, -, -, -, -, -, -, -, -, -, -, -, -, -, e0, e1⟩ := idx_facts t
  have ht := point_lt t
  funext y
  obtain ⟨p, q, rfl⟩ : ∃ (p : Fin 4000) (q : Fin 128), y = ix2 p q := ⟨y 0, y 1, eq_ix2 y⟩
  have h : t.val * 4000 + p.val < 300000 := by have := p.isLt; omega
  show k0_pay1 (F := Ideal) (srcBlk m c t) (dstBlk m c t) (wsBlk m c t) (wdBlk m c t) (b1Blk m c t) (w2Blk m c t) (b2Blk m c t) (ix2 p q)
    = outArr m c (((cfg0.win 7).blk t).view.emb (ix2 p q))
  rw [point_eq m c t p q h, ← outArr_ix2]
  refine congrArg (outArr m c) (funext fun a => Fin.ext ?_)
  match a with
  | ⟨0, _⟩ => show t.val * 4000 + p.val = win0_7.index t (0 : Fin 2) * 4000 + 1 * p.val; rw [e0]; omega
  | ⟨1, _⟩ => show q.val = win0_7.index t (1 : Fin 2) * 128 + 1 * q.val; rw [e1]; omega

/-! ## The cover -/

/-- An index of the result is in point `t`'s block iff each coordinate is in the block's range on its axis. -/
theorem mem_blk (t : Fin cfg0.N) (i : S300000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v32).slice (win0_7.rect t)).set ↔ _
  rw [View.set_slice_whole, Rect.mem_set_unit]
  exact Iff.rfl

/-- Row `e` of the result is written back at point `e / 4000`. -/
theorem cover (i : S300000x128.Idx) : ∃ t : Fin cfg0.N, (cfg0.win 7).flush t = true ∧ i ∈ ((cfg0.win 7).blk t).view.set := by
  have hi0 : (i 0).val < 300000 := (i 0).isLt
  have hi1 : (i 1).val < 128 := (i 1).isLt
  have hN : (i 0).val / 4000 < cfg0.N := by rw [show cfg0.N = 75 from N_0]; omega
  refine ⟨⟨(i 0).val / 4000, hN⟩, flush0_7 _, ?_⟩
  rw [mem_blk]
  obtain ⟨-, -, -, -, -, -, -, -, -, -, -, -, -, -, e0, e1⟩ := idx_facts ⟨(i 0).val / 4000, hN⟩
  have e0' : win0_7.index ⟨(i 0).val / 4000, hN⟩ (0 : Fin 2) = (i 0).val / 4000 := e0
  intro a
  match a with
  | ⟨0, _⟩ =>
    show win0_7.index ⟨(i 0).val / 4000, hN⟩ (0 : Fin 2) * 4000 ≤ (i 0).val ∧ (i 0).val < win0_7.index ⟨(i 0).val / 4000, hN⟩ (0 : Fin 2) * 4000 + 4000
    rw [e0']; omega
  | ⟨1, _⟩ =>
    show win0_7.index ⟨(i 0).val / 4000, hN⟩ (1 : Fin 2) * 128 ≤ (i 1).val ∧ (i 1).val < win0_7.index ⟨(i 0).val / 4000, hN⟩ (1 : Fin 2) * 128 + 128
    rw [e1]; omega

/-- THE ARRAY after the run. -/
theorem final (c : Dev nD) : (dats m 0 c).arrAt 7 cfg0.N = outArr m c :=
  (dats m 0 c).arrAt_eq_of_cover 7 (outArr m c) (fun t _ => flushed_eq m c t) cover

end Cert.KernelIdeal.Blocks

end
-- ==== Proof.KTail.lean ====
/-
  After the region: the program keeps column 0 of the [300000, 128] result and flattens it, so entry `e` of what it
  returns is row `e`, column 0 of what the region left — the score against column 0 of the padded second layer.
-/
import proofs.«110246_j47588237639882_1_alg».proof.Proof.KBlocks
import Idealize.ShloMosaic.Lib.StableHlo.Run
import Idealize.ShloMosaic.Lib.Pipeline.Value

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Column 0 of an array of 128 columns, flattened: entry `e` is the array's entry (e, 0). -/
theorem column0_apply (x : FVec Ideal S300000x128 .f32) (e : Fin 300000) :
    shapeCast S300000 (extractStridedSlice S300000x1 ![0, 0] x slices_S300000x128_S300000x1_0_0) shapeCasts_S300000x1_S300000 (ix1 e)
      = x (ix2 e 0) := by
  refine (shapeCast_apply _ shapeCasts_S300000x1_S300000 (ix1 e) (ix2 e 0)
    (by rewrite [Shape.rowMajor_val_two, Shape.rowMajor_val_one]; show e.val * 1 + 0 = e.val; omega)).trans ?_
  exact extractStridedSlice_apply ![0, 0] x slices_S300000x128_S300000x1_0_0 (ix2 e 0) (ix2 e 0) (fun a => match a with
    | ⟨0, _⟩ => by show e.val = 0 + e.val; omega
    | ⟨1, _⟩ => by show 0 = 0 + 0; omega)

/-- The region's result array, as the lines after the region find it, is the score array of the blocks. -/
theorem region_result (c : Dev nD) :
    Pipeline.withArrays (cfgs 0).spec c (V0 m c) (fun w => (dats m 0 c).arrAt w (cfgs 0).N) (Proc.devRef .tc main_v32)
      = Blocks.outArr m c :=
  (Pipeline.withArrays_arr spec0 launch0.win.arr_inj c _ _ 7).trans (Blocks.final m c)

/-- WHAT THE PROGRAM RETURNS: entry `e` is the region's result at row `e`, column 0. -/
theorem result_eq (c : Dev nD) :
    Pipeline.afterTail₀ cfgs (dats m) 0 (V0 m) [hostOps1] c main_v34
      = fun i => Blocks.outAt m c ⟨(i 0).val, (i 0).isLt⟩ 0 := by
  refine Eq.trans (b := shapeCast S300000 (extractStridedSlice S300000x1 ![0, 0] (Blocks.outArr m c) slices_S300000x128_S300000x1_0_0) shapeCasts_S300000x1_S300000) ?_ ?_
  · unfold Pipeline.afterTail₀
    show StableHlo.after hostOps1 _ (Proc.devRef .tc main_v34) = _
    after_results
    rw [region_result]
    rfl
  · funext i
    obtain ⟨e, rfl⟩ : ∃ e : Fin 300000, i = ix1 e := ⟨i 0, eq_ix1 i⟩
    exact (column0_apply (Blocks.outArr m c) e).trans (Blocks.outArr_ix2 m c e 0)

end Cert.KernelIdeal.Tail

end
-- ==== Proof.KHead.lean ====
/-
  The arrays the region is launched on, as functions of the program's arguments.

  Before the region the program gathers the source and destination rows of `z` (negative indices wrapped by the number
  of nodes, exactly as the reference does: the gathered arrays are the reference's own two stages), cuts `W1` into its
  two [256, 256] halves and transposes each (so entry (j, k) of a half is `W1[k, j]`, resp. `W1[k, 256 + j]`), reshapes
  `b1` to a row, transposes `W2` to a column and pads it with 127 zero columns (column 0 is `W2[0, ·]`), and pads `b2`
  likewise (entry (0, 0) is `b2[0]`). The changes of float format are the identity on the extended reals.
-/
import proofs.«110246_j47588237639882_1_alg».proof.Proof.Gen.KernelIdeal.Frame
import proofs.«110246_j47588237639882_1_alg».proof.Proof.Gen.ReferenceIdeal.Read
import Idealize.ShloMosaic.Lib.StableHlo.Run
import Idealize.ShloMosaic.Lib.Pipeline.Value
import Idealize.ShloMosaic.Lib.KernelVsHost
import Idealize.ShloMosaic.Lib.ValueIdx

noncomputable section

namespace Cert.KernelIdeal.Head

open Cert.KernelIdeal Cert.KernelIdeal.Gen Idealize.ShloMosaic Idealize.ShloMosaic.TcCoe Idealize.ShloMosaic.ValueIdx
open Idealize.SL.Sem Idealize.ShloMosaic.StableHlo

/-! ## Each array as its host operations' term -/

section Terms

variable {F : FTy → Type} [FloatOps F] (m : (ℓ : Loc nD τ sig) → Buf (Elt F) ℓ)

set_option maxHeartbeats 1000000 in
/-- The gathered source rows are the reference's own gather stage (rounded to bf16). -/
theorem src_term (c : Dev nD) : (V m c main_v18 : Vec F S300000x256 .bf16)
    = truncf .bf16 (Cert.ReferenceIdeal.Read.val_main_v8 (F := F) (m ((c : Thread nD τ).loc main_arg0)) (m ((c : Thread nD τ).loc main_arg5))) bitsLt_bf16_f32 := by
  dsimp only [V, V0]
  simp only [hostOps0, hostOps0_1, hostOps0_2, hostOps0_3, List.flatten_cons, List.flatten_nil, List.append_nil, List.cons_append, List.nil_append]
  after_results_simp <;> rfl

set_option maxHeartbeats 1000000 in
/-- The gathered destination rows likewise. -/
theorem dst_term (c : Dev nD) : (V m c main_v19 : Vec F S300000x256 .bf16)
    = truncf .bf16 (Cert.ReferenceIdeal.Read.val_main_v17 (F := F) (m ((c : Thread nD τ).loc main_arg0)) (m ((c : Thread nD τ).loc main_arg5))) bitsLt_bf16_f32 := by
  dsimp only [V, V0]
  simp only [hostOps0, hostOps0_1, hostOps0_2, hostOps0_3, List.flatten_cons, List.flatten_nil, List.append_nil, List.cons_append, List.nil_append]
  after_results_simp <;> rfl

/-- The source half of the first layer's weights, transposed. -/
theorem ws_term (c : Dev nD) : (V m c main_v22 : Vec F S256x256 .bf16)
    = truncf .bf16 (transpose S256x256 [1, 0] (extractStridedSlice S256x256 ![0, 0] (m ((c : Thread nD τ).loc main_arg1)) slices_S256x512_S256x256_0_0) transposes_S256x256_S256x256_1_0) bitsLt_bf16_f32 := by
  dsimp only [V, V0]
  simp only [hostOps0, hostOps0_1, hostOps0_2, hostOps0_3, List.flatten_cons, List.flatten_nil, List.append_nil, List.cons_append, List.nil_append]
  after_results_simp <;> rfl

/-- The destination half. -/
theorem wd_term (c : Dev nD) : (V m c main_v25 : Vec F S256x256 .bf16)
    = truncf .bf16 (transpose S256x256 [1, 0] (extractStridedSlice S256x256 ![0, 256] (m ((c : Thread nD τ).loc main_arg1)) slices_S256x512_S256x256_0_256) transposes_S256x256_S256x256_1_0) bitsLt_bf16_f32 := by
  dsimp only [V, V0]
  simp only [hostOps0, hostOps0_1, hostOps0_2, hostOps0_3, List.flatten_cons, List.flatten_nil, List.append_nil, List.cons_append, List.nil_append]
  after_results_simp <;> rfl

/-- The first bias as a row. -/
theorem b1_term (c : Dev nD) : (V m c main_v26 : Vec F S1x256 .f32)
    = shapeCast S1x256 (m ((c : Thread nD τ).loc main_arg2)) shapeCasts_S256_S1x256 := by
  dsimp only [V, V0]
  simp only [hostOps0, hostOps0_1, hostOps0_2, hostOps0_3, List.flatten_cons, List.flatten_nil, List.append_nil, List.cons_append, List.nil_append]
  after_results_simp <;> rfl

/-- The second layer's weights as a column, padded to 128 columns. -/
theorem w2_term (c : Dev nD) : (V m c main_v29 : Vec F S256x128 .bf16)
    = truncf .bf16 (pad S256x128 ![0, 0] ![0, 127] ![0, 0] (transpose S256x1 [1, 0] (m ((c : Thread nD τ).loc main_arg3)) transposes_S1x256_S256x1_1_0)
        (sitofp (F := F) .f32 (constantI S_ 32 0#32)) pads_S256x1_S256x128_000_01270 h_S_) bitsLt_bf16_f32 := by
  dsimp only [V, V0]
  simp only [hostOps0, hostOps0_1, hostOps0_2, hostOps0_3, List.flatten_cons, List.flatten_nil, List.append_nil, List.cons_append, List.nil_append]
  after_results_simp <;> rfl

/-- The second bias, padded to 128 columns. -/
theorem b2_term (c : Dev nD) : (V m c main_v31 : Vec F S1x128 .f32)
    = pad S1x128 ![0, 0] ![0, 127] ![0, 0] (shapeCast S1x1 (m ((c : Thread nD τ).loc main_arg4)) shapeCasts_S1_S1x1)
        (sitofp (F := F) .f32 (constantI S_ 32 0#32)) pads_S1x1_S1x128_000_01270 h_S_ := by
  dsimp only [V, V0]
  simp only [hostOps0, hostOps0_1, hostOps0_2, hostOps0_3, List.flatten_cons, List.flatten_nil, List.append_nil, List.cons_append, List.nil_append]
  after_results_simp <;> rfl

end Terms

/-! ## Those terms read at an index, on the extended reals -/

/-- Entry (j, k) of the transposed source half is `W1[k, j]`. -/
theorem ws_apply (x1 : FVec Ideal S256x512 .f32) (j k : Fin 256) :
    truncf .bf16 (transpose S256x256 [1, 0] (extractStridedSlice S256x256 ![0, 0] x1 slices_S256x512_S256x256_0_0) transposes_S256x256_S256x256_1_0) bitsLt_bf16_f32 (ix2 j k)
      = x1 (ix2 k ⟨j.val, by have := j.isLt; omega⟩) := by
  rw [truncf_apply]
  refine (transpose_apply [1, 0] _ transposes_S256x256_S256x256_1_0 (ix2 j k) (ix2 k j) (fun b => match b with
    | ⟨0, _⟩ => rfl
    | ⟨1, _⟩ => rfl)).trans ?_
  exact extractStridedSlice_apply ![0, 0] x1 slices_S256x512_S256x256_0_0 (ix2 k j) (ix2 k ⟨j.val, by have := j.isLt; omega⟩) (fun a => match a with
    | ⟨0, _⟩ => by show k.val = 0 + k.val; omega
    | ⟨1, _⟩ => by show j.val = 0 + j.val; omega)

/-- Entry (j, k) of the transposed destination half is `W1[k, 256 + j]`. -/
theorem wd_apply (x1 : FVec Ideal S256x512 .f32) (j k : Fin 256) :
    truncf .bf16 (transpose S256x256 [1, 0] (extractStridedSlice S256x256 ![0, 256] x1 slices_S256x512_S256x256_0_256) transposes_S256x256_S256x256_1_0) bitsLt_bf16_f32 (ix2 j k)
      = x1 (ix2 k ⟨256 + j.val, by have := j.isLt; omega⟩) := by
  rw [truncf_apply]
  refine (transpose_apply [1, 0] _ transposes_S256x256_S256x256_1_0 (ix2 j k) (ix2 k j) (fun b => match b with
    | ⟨0, _⟩ => rfl
    | ⟨1, _⟩ => rfl)).trans ?_
  exact extractStridedSlice_apply ![0, 256] x1 slices_S256x512_S256x256_0_256 (ix2 k j) (ix2 k ⟨256 + j.val, by have := j.isLt; omega⟩) (fun a => match a with
    | ⟨0, _⟩ => by show k.val = 0 + k.val; omega
    | ⟨1, _⟩ => by show 256 + j.val = 256 + j.val; omega)

/-- Entry (0, k) of the bias row is `b1[k]`. -/
theorem b1_apply (x2 : FVec Ideal S256 .f32) (k : Fin 256) :
    shapeCast S1x256 x2 shapeCasts_S256_S1x256 (ix2 0 k) = x2 (ix1 k) :=
  shapeCast_apply x2 shapeCasts_S256_S1x256 (ix2 0 k) (ix1 k)
    (by rewrite [Shape.rowMajor_val_one, Shape.rowMajor_val_two]; show k.val = 0 * 256 + k.val; omega)

/-- Column 0 of the padded second layer is `W2[0, ·]`. -/
theorem w2_apply (x3 : FVec Ideal S1x256 .f32) (k : Fin 256) :
    truncf .bf16 (pad S256x128 ![0, 0] ![0, 127] ![0, 0] (transpose S256x1 [1, 0] x3 transposes_S1x256_S256x1_1_0)
        (sitofp (F := Ideal) .f32 (constantI S_ 32 0#32)) pads_S256x1_S256x128_000_01270 h_S_) bitsLt_bf16_f32 (ix2 k 0)
      = x3 (ix2 0 k) := by
  rw [truncf_apply]
  refine (pad_apply_of_inside ![0, 0] ![0, 127] ![0, 0] _ _ pads_S256x1_S256x128_000_01270 h_S_ (ix2 k 0) (ix2 k 0) (fun a => match a with
    | ⟨0, _⟩ => by show k.val = 0 + k.val * (0 + 1); omega
    | ⟨1, _⟩ => by show 0 = 0 + 0 * (0 + 1); omega)).trans ?_
  exact transpose_apply [1, 0] x3 transposes_S1x256_S256x1_1_0 (ix2 k 0) (ix2 0 k) (fun b => match b with
    | ⟨0, _⟩ => rfl
    | ⟨1, _⟩ => rfl)

/-- Entry (0, 0) of the padded second bias is `b2[0]`. -/
theorem b2_apply (x4 : FVec Ideal S1 .f32) :
    pad S1x128 ![0, 0] ![0, 127] ![0, 0] (shapeCast S1x1 x4 shapeCasts_S1_S1x1)
        (sitofp (F := Ideal) .f32 (constantI S_ 32 0#32)) pads_S1x1_S1x128_000_01270 h_S_ (ix2 0 0)
      = x4 (ix1 0) := by
  refine (pad_apply_of_inside ![0, 0] ![0, 127] ![0, 0] _ _ pads_S1x1_S1x128_000_01270 h_S_ (ix2 0 0) (ix2 0 0) (fun a => match a with
    | ⟨0, _⟩ => by show 0 = 0 + 0 * (0 + 1); omega
    | ⟨1, _⟩ => by show 0 = 0 + 0 * (0 + 1); omega)).trans ?_
  exact shapeCast_apply x4 shapeCasts_S1_S1x1 (ix2 0 0) (ix1 0)
    (by rewrite [Shape.rowMajor_val_one, Shape.rowMajor_val_two]; show 0 = 0 * 1 + 0; omega)

end Cert.KernelIdeal.Head

end
-- ==== Proof.RefValue.lean ====
/-
  The reference, read at one edge.

  `reference()` gathers the source and destination rows, contracts each with its half of the first layer's weights
  (`W1[k, j]` for the source half, `W1[k, 256 + j]` for the destination half), adds the bias, rectifies, contracts the
  hidden layer with `W2[0, ·]` and adds `b2[0]`. Read at edge `e` this is the score of `Cert.LinkScore` at the two
  gathered arrays; the gathers themselves stay closed (both programs gather with the same indices).
-/
import proofs.«110246_j47588237639882_1_alg».proof.Proof.Gen.ReferenceIdeal.Read
import proofs.«110246_j47588237639882_1_alg».proof.Proof.Spec

noncomputable section

namespace Cert.ReferenceIdeal.RefValue

open Cert.ReferenceIdeal Cert.ReferenceIdeal.Read Idealize.ShloMosaic Idealize.ShloMosaic.ValueIdx

/-- The score array over the gathered rows `src`, `dst` and the parameters as `reference()` receives them. -/
def scoreArr (src dst : Vec Ideal S300000x256 .f32) (x1 : Vec Ideal S256x512 .f32) (x2 : Vec Ideal S256 .f32)
    (x3 : Vec Ideal S1x256 .f32) (x4 : Vec Ideal S1 .f32) : Vec Ideal S300000 .f32 := fun i =>
  LinkScore.score (fun e j => src (ix2 e j)) (fun e j => dst (ix2 e j))
    (fun j k => x1 (ix2 k ⟨j.val, by have := j.isLt; omega⟩)) (fun j k => x1 (ix2 k ⟨256 + j.val, by have := j.isLt; omega⟩))
    (fun k => x2 (ix1 k)) (fun k => x3 (ix2 0 k)) (x4 (ix1 0)) ⟨(i 0).val, (i 0).isLt⟩

/-! The composed index maps of the read-at-an-index lemmas, at coordinates. -/

theorem lidx20 (e : Fin 300000) (k j : Fin 256) : lidx_main_v20 (ix2 e k) j = ix2 e j :=
  funext fun a => Fin.ext (by match a with | ⟨0, _⟩ => rfl | ⟨1, _⟩ => rfl)
theorem ridx20 (e : Fin 300000) (k j : Fin 256) :
    idx_main_v18 (ridx_main_v20 (ix2 e k) j) = ix2 k ⟨j.val, by have := j.isLt; omega⟩ :=
  funext fun a => Fin.ext (by match a with | ⟨0, _⟩ => rfl | ⟨1, _⟩ => rfl)
theorem lidx21 (e : Fin 300000) (k j : Fin 256) : lidx_main_v21 (ix2 e k) j = ix2 e j :=
  funext fun a => Fin.ext (by match a with | ⟨0, _⟩ => rfl | ⟨1, _⟩ => rfl)
theorem ridx21 (e : Fin 300000) (k j : Fin 256) :
    idx_main_v19 (ridx_main_v21 (ix2 e k) j) = ix2 k ⟨256 + j.val, by have := j.isLt; omega⟩ :=
  funext fun a => Fin.ext (by match a with | ⟨0, _⟩ => rfl | ⟨1, _⟩ => rfl)
theorem bidx (e : Fin 300000) (k : Fin 256) : idx_main_v23 (idx_main_v24 (ix2 e k)) = ix1 k :=
  funext fun a => Fin.ext (by match a with | ⟨0, _⟩ => rfl)

/-- The rectified hidden layer of the reference at edge `e`, unit `k`. -/
theorem hidden_eq (x0 : Vec Ideal S100000x256 .f32) (x1 : Vec Ideal S256x512 .f32) (x2 : Vec Ideal S256 .f32)
    (x5 : (⟨S2x300000, .i32⟩ : BufTy).Contents (Elt Ideal)) (e : Fin 300000) (k : Fin 256) :
    val_main_v26 (F := Ideal) x0 x1 x2 x5 (ix2 e k)
      = LinkScore.hidden (fun e j => val_main_v8 (F := Ideal) x0 x5 (ix2 e j)) (fun e j => val_main_v17 (F := Ideal) x0 x5 (ix2 e j))
          (fun j k => x1 (ix2 k ⟨j.val, by have := j.isLt; omega⟩)) (fun j k => x1 (ix2 k ⟨256 + j.val, by have := j.isLt; omega⟩))
          (fun k => x2 (ix1 k)) e k := by
  rw [val_main_v26_apply, val_main_v25_apply, val_main_v22_apply, val_main_v20_apply, val_main_v21_apply, val_main_v24_apply,
    val_main_v23_apply, val_main_call0_v0_apply, val_main_call0_cst_apply]
  simp only [val_main_v18_apply, val_main_v19_apply, lidx20, ridx20, lidx21, ridx21, bidx, Ideal.maximumf_def, Ideal.addf_def,
    Ideal.ofBits_def, Ideal.ofBits_zero_f32]
  rfl

/-- THE REFERENCE'S RESULT is the score array at its two gathers. -/
theorem result_eq (x0 : Vec Ideal S100000x256 .f32) (x1 : Vec Ideal S256x512 .f32) (x2 : Vec Ideal S256 .f32)
    (x3 : Vec Ideal S1x256 .f32) (x4 : Vec Ideal S1 .f32) (x5 : (⟨S2x300000, .i32⟩ : BufTy).Contents (Elt Ideal)) :
    val_main_v31 (F := Ideal) x0 x1 x2 x3 x4 x5
      = scoreArr (val_main_v8 (F := Ideal) x0 x5) (val_main_v17 (F := Ideal) x0 x5) x1 x2 x3 x4 := by
  funext i
  obtain ⟨e, rfl⟩ : ∃ e : Fin 300000, i = ix1 e := ⟨i 0, eq_ix1 i⟩
  have hi : idx_main_v31 (ix1 e) = ix2 e 0 :=
    funext fun a => Fin.ext (by match a with | ⟨0, _⟩ => exact Nat.div_one _ | ⟨1, _⟩ => rfl)
  have hl : ∀ k : Fin 256, lidx_main_v27 (ix2 e (0 : Fin 1)) k = ix2 e k := fun k =>
    funext fun a => Fin.ext (by match a with | ⟨0, _⟩ => rfl | ⟨1, _⟩ => rfl)
  have hr : ∀ k : Fin 256, ridx_main_v27 (ix2 e (0 : Fin 1)) k = ix2 0 k := fun k =>
    funext fun a => Fin.ext (by match a with | ⟨0, _⟩ => rfl | ⟨1, _⟩ => rfl)
  have hb : idx_main_v28 (idx_main_v29 (ix2 e (0 : Fin 1))) = ix1 0 :=
    funext fun a => Fin.ext (by match a with | ⟨0, _⟩ => rfl)
  rw [val_main_v31_apply, hi, val_main_v30_apply, val_main_v27_apply, val_main_v29_apply, val_main_v28_apply, hb]
  simp only [hl, hr, hidden_eq, Ideal.addf_def]
  rfl

end Cert.ReferenceIdeal.RefValue

end
-- ==== Proof.KValue.lean ====
/-
  The kernel program's result as a function of its arguments.

  Entry `e` of what the program returns is the region's result at (e, 0): the score of edge `e` over the arrays the
  region was launched on. Those arrays are the gathered rows, the transposed halves of `W1`, the bias row, and the padded
  second layer, whose column 0 is `W2[0, ·]` and whose bias entry (0, 0) is `b2[0]`: so the result is the reference's
  score array at the same two gathers.
-/
import proofs.«110246_j47588237639882_1_alg».proof.Proof.KTail
import proofs.«110246_j47588237639882_1_alg».proof.Proof.KHead
import proofs.«110246_j47588237639882_1_alg».proof.Proof.RefValue

noncomputable section

namespace Cert.KernelIdeal.Result

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The reference's score array at this program's arguments. -/
abbrev scores (c : Dev nD) : Vec Ideal S300000 .f32 :=
  Cert.ReferenceIdeal.RefValue.scoreArr
    (Cert.ReferenceIdeal.Read.val_main_v8 (F := Ideal) (m ((c : Thread nD τ).loc main_arg0)) (m ((c : Thread nD τ).loc main_arg5)))
    (Cert.ReferenceIdeal.Read.val_main_v17 (F := Ideal) (m ((c : Thread nD τ).loc main_arg0)) (m ((c : Thread nD τ).loc main_arg5)))
    (m ((c : Thread nD τ).loc main_arg1)) (m ((c : Thread nD τ).loc main_arg2)) (m ((c : Thread nD τ).loc main_arg3))
    (m ((c : Thread nD τ).loc main_arg4))

/-- Row `e`, column 0 of the region's result is the reference's score of edge `e`. -/
theorem outAt_zero (c : Dev nD) (e : Fin 300000) : Blocks.outAt m c e 0 = scores m c (ix1 e) := by
  unfold Blocks.outAt scores Cert.ReferenceIdeal.RefValue.scoreArr
  refine LinkScore.score_congr (e' := e) (fun j => ?_) (fun j => ?_) (fun j k => ?_) (fun j k => ?_) (fun k => ?_) (fun k => ?_) ?_
  · exact (congrFun (Head.src_term m c) (ix2 e j)).trans (truncf_apply _ _ _)
  · exact (congrFun (Head.dst_term m c) (ix2 e j)).trans (truncf_apply _ _ _)
  · exact (congrFun (Head.ws_term m c) (ix2 j k)).trans (Head.ws_apply _ j k)
  · exact (congrFun (Head.wd_term m c) (ix2 j k)).trans (Head.wd_apply _ j k)
  · exact (congrFun (Head.b1_term m c) (ix2 0 k)).trans (Head.b1_apply _ k)
  · exact (congrFun (Head.w2_term m c) (ix2 k 0)).trans (Head.w2_apply _ k)
  · exact (congrFun (Head.b2_term m c) (ix2 0 0)).trans (Head.b2_apply _)

/-- What the program returns. -/
theorem result_eq (c : Dev nD) :
    Pipeline.afterTail₀ cfgs (dats m) 0 (V0 m) [hostOps1] c main_v34 = scores m c := by
  rw [Tail.result_eq]
  funext i
  obtain ⟨e, rfl⟩ : ∃ e : Fin 300000, i = ix1 e := ⟨i 0, eq_ix1 i⟩
  exact outAt_zero m c e

/-- THE RUN: every weakly fair execution of the kernel program ends with the result at the reference's score array of
    its arguments, and the arguments unchanged. -/
theorem run : θ_run defs (onTc (τ := τ) (main (F := Ideal))) ⟨m, fun _ => 0, ρ⟩ fun r => ∀ c : Dev nD,
      r.2.mem ((c.tc : Thread nD τ).loc main_v34) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v34 (Pipeline.mem_restRefs_of main_v34 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Result

end
-- ==== Proof.lean ====
/-
  A link predictor's scores — for each of 300000 edges, gather the two endpoints' embeddings, apply a two-layer
  perceptron with a rectifier, return one number — computed by a tiled kernel, against the plain reference.

  On the extended reals both programs return, at edge `e`,
  `Σ_k max (Σ_j src[e, j] · W1[k, j] + Σ_j dst[e, j] · W1[k, 256 + j] + b1[k]) 0 · W2[0, k] + b2[0]`
  where `src`, `dst` are the rows of `z` gathered at the two index rows (the same gather in both programs).
  The kernel program rounds its matrix operands to bf16 (the identity here), lays the weights out transposed, pads the
  second layer to 128 columns of which only column 0 is kept, and runs the perceptron on 75 blocks of 4000 edges; the
  sums are the same sums, term by term, so no law of arithmetic beyond reading both sides at an index is needed and the
  inputs' finiteness is not used.

  The three frames are the generated ones (the reference's is its generated run with the result dropped); the
  idealization rewrote nothing.
-/
import proofs.«110246_j47588237639882_1_alg».proof.Defs
import proofs.«110246_j47588237639882_1_alg».proof.Proof.Gen.Kernel
import proofs.«110246_j47588237639882_1_alg».proof.Proof.Gen.Kernel.Skeleton
import proofs.«110246_j47588237639882_1_alg».proof.Proof.Gen.Kernel.Launch
import proofs.«110246_j47588237639882_1_alg».proof.Proof.Gen.Kernel.Points
import proofs.«110246_j47588237639882_1_alg».proof.Proof.Gen.Kernel.Frame
import proofs.«110246_j47588237639882_1_alg».proof.Proof.Gen.KernelIdeal
import proofs.«110246_j47588237639882_1_alg».proof.Proof.Gen.KernelIdeal.Skeleton
import proofs.«110246_j47588237639882_1_alg».proof.Proof.Gen.KernelIdeal.Launch
import proofs.«110246_j47588237639882_1_alg».proof.Proof.Gen.KernelIdeal.Points
import proofs.«110246_j47588237639882_1_alg».proof.Proof.Gen.KernelIdeal.Frame
import proofs.«110246_j47588237639882_1_alg».proof.Proof.Gen.ReferenceIdeal
import proofs.«110246_j47588237639882_1_alg».proof.Proof.Gen.ReferenceIdeal.Run
import proofs.«110246_j47588237639882_1_alg».proof.Proof.Gen.ReferenceIdeal.Read
import proofs.«110246_j47588237639882_1_alg».proof.Proof.Gen.Pre_finite_inputs
import proofs.«110246_j47588237639882_1_alg».proof.Proof.KValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the reference's score array of the (agreeing) arguments: the kernel program's by its blocks and
    the lines around the region, the reference's by reading its run at an index. -/
theorem algebraic : Cert.algebraic_KernelIdeal_ReferenceIdeal := by
  intro m ρ m' ρ' _ hagree
  refine ⟨fun c => Cert.KernelIdeal.Result.scores m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v31_eq _ _ _ _ _ _).trans ((Cert.ReferenceIdeal.RefValue.result_eq _ _ _ _ _ _).trans ?_)
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
